-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x6 : Shape := ⟨2, ![4194304, 6]⟩
abbrev S_ : Shape := ⟨0, ![]⟩

class Facts : Prop where
  bcast_S_S4194304x6 : S_.BroadcastsInDim S4194304x6 (![] : Fin 0 → Fin S4194304x6.rank)
  reducesTo_S4194304x6_S_d0_1 : S4194304x6.ReducesTo [0, 1] S_
  h_S_ : 0 < S_.numel

variable [Facts]

def fn {F : FTy → Type} [FloatOps F] (main_arg0 : FVec F S4194304x6 .f32) : IVec S_ 1 :=
  let main_v0 : FVec F S4194304x6 .f32 := Host.absf main_arg0
  let main_cst : FVec F S_ .f32 := constant S_ .f32 0x7F800000#32
  let main_v1 : FVec F S4194304x6 .f32 := broadcastInDim S4194304x6 ![] bcast_S_S4194304x6 main_cst
  let main_v2 : IVec S4194304x6 1 := cmpf .olt main_v0 main_v1
  let main_c : IVec S_ 1 := constantI S_ 1 1#1
  let main_v3 : IVec S_ 1 := (fun x v => Host.reduce IntOp.andi x v reducesTo_S4194304x6_S_d0_1 h_S_) main_v2 main_c
  main_v3
-- ==== Kernel.lean ====
abbrev S4194304x6 : Shape := ⟨2, ![4194304, 6]⟩
abbrev S4194304x12 : Shape := ⟨2, ![4194304, 12]⟩
abbrev S8192x6 : Shape := ⟨2, ![8192, 6]⟩
abbrev S8192x12 : Shape := ⟨2, ![8192, 12]⟩
abbrev S8192x1 : Shape := ⟨2, ![8192, 1]⟩
abbrev S8192 : Shape := ⟨1, ![8192]⟩

abbrev nBuf : Space → Nat
  | .hbm => 2
  | .vmem => 4
  | .smem => 0
  | _ => 0

abbrev bufTy : (tb : Table) → Fin (tcTables nBuf tb) → BufTy
  | .hbm, ⟨0, _⟩ => ⟨S4194304x6, .f32⟩
  | .hbm, ⟨1, _⟩ => ⟨S4194304x12, .f32⟩
  | .local _ .vmem, ⟨0, _⟩ => ⟨S8192x6, .f32⟩
  | .local _ .vmem, ⟨1, _⟩ => ⟨S8192x6, .f32⟩
  | .local _ .vmem, ⟨2, _⟩ => ⟨S8192x12, .f32⟩
  | .local _ .vmem, ⟨3, _⟩ => ⟨S8192x12, .f32⟩
  | _, _ => ⟨S4194304x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x6_S8192x6_0_0 : ∀ a, (![0, 0] : Fin 2 → Nat) a + S8192x6.size a ≤ S8192x6.size a
  h_S8192x6 : 0 < S8192x6.numel
  slices_S8192x6_o0_0_S8192x1 : S8192x6.Slices ![0, 0] S8192x1
  shapeCasts_S8192x1_S8192 : S8192x1.ShapeCasts S8192
  slices_S8192x6_o0_1_S8192x1 : S8192x6.Slices ![0, 1] S8192x1
  slices_S8192x6_o0_2_S8192x1 : S8192x6.Slices ![0, 2] S8192x1
  slices_S8192x6_o0_3_S8192x1 : S8192x6.Slices ![0, 3] S8192x1
  slices_S8192x6_o0_4_S8192x1 : S8192x6.Slices ![0, 4] S8192x1
  slices_S8192x6_o0_5_S8192x1 : S8192x6.Slices ![0, 5] S8192x1
  shapeCasts_S8192_S8192x1 : S8192.ShapeCasts S8192x1
  concatenates_S8192x1_S8192x1_S8192x1_S8192x1_S8192x1_S8192x1_S8192x1_S8192x1_S8192x1_S8192x1_S8192x1_S8192x1_S8192x12_d1 : Shape.Concatenates [S8192x1, S8192x1, S8192x1, S8192x1, S8192x1, S8192x1, S8192x1, S8192x1, S8192x1, S8192x1, S8192x1, S8192x1] S8192x12 1
  inb_S8192x12_S8192x12_0_0 : ∀ a, (![0, 0] : Fin 2 → Nat) a + S8192x12.size a ≤ S8192x12.size a
  h_S8192x12 : 0 < S8192x12.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x6.size a ≤ S4194304x6.size a
  hwx0_0 : ∀ i : grid0.Coords, EltTy.bits .f32 = 32 ∨ (Rect.block (s := S4194304x6) S8192x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x12.size a ≤ S4194304x12.size a
  hwx0_1 : ∀ i : grid0.Coords, EltTy.bits .f32 = 32 ∨ (Rect.block (s := S4194304x12) S8192x12.size (cc0_transform_1 i) (hinb0_1 i)).WholeWords (EltTy.packing .f32)

variable [Facts₀]

abbrev win0_0 : Pipeline.Window sig grid0 :=
  Pipeline.Window.ofSpec (Memref.whole main_arg0) S8192x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x12.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x6 : Shape := ⟨2, ![4194304, 6]⟩
abbrev S4194304x1 : Shape := ⟨2, ![4194304, 1]⟩
abbrev S4194304 : Shape := ⟨1, ![4194304]⟩
abbrev S4194304x3 : Shape := ⟨2, ![4194304, 3]⟩
abbrev S_ : Shape := ⟨0, ![]⟩
abbrev S4194304x9 : Shape := ⟨2, ![4194304, 9]⟩
abbrev S4194304x3x3 : Shape := ⟨3, ![4194304, 3, 3]⟩
abbrev S4194304x3x1 : Shape := ⟨3, ![4194304, 3, 1]⟩
abbrev S4194304x3x4 : Shape := ⟨3, ![4194304, 3, 4]⟩
abbrev S4194304x12 : Shape := ⟨2, ![4194304, 12]⟩

abbrev nBuf : Space → Nat
  | .hbm => 59
  | .vmem => 0
  | .smem => 0
  | _ => 0

abbrev bufTy : (tb : Table) → Fin (tcTables nBuf tb) → BufTy
  | .hbm, ⟨0, _⟩ => ⟨S4194304x6, .f32⟩
  | .hbm, ⟨1, _⟩ => ⟨S4194304x1, .f32⟩
  | .hbm, ⟨2, _⟩ => ⟨S4194304, .f32⟩
  | .hbm, ⟨3, _⟩ => ⟨S4194304x1, .f32⟩
  | .hbm, ⟨4, _⟩ => ⟨S4194304, .f32⟩
  | .hbm, ⟨5, _⟩ => ⟨S4194304x1, .f32⟩
  | .hbm, ⟨6, _⟩ => ⟨S4194304, .f32⟩
  | .hbm, ⟨7, _⟩ => ⟨S4194304x3, .f32⟩
  | .hbm, ⟨8, _⟩ => ⟨S4194304, .f32⟩
  | .hbm, ⟨9, _⟩ => ⟨S4194304, .f32⟩
  | .hbm, ⟨10, _⟩ => ⟨S4194304, .f32⟩
  | .hbm, ⟨11, _⟩ => ⟨S4194304, .f32⟩
  | .hbm, ⟨12, _⟩ => ⟨S4194304, .f32⟩
  | .hbm, ⟨13, _⟩ => ⟨S4194304, .f32⟩
  | .hbm, ⟨14, _⟩ => ⟨S_, .f32⟩
  | .hbm, ⟨15, _⟩ => ⟨S4194304, .f32⟩
  | .hbm, ⟨16, _⟩ => ⟨S_, .f32⟩
  | .hbm, ⟨17, _⟩ => ⟨S4194304, .f32⟩
  | .hbm, ⟨18, _⟩ => ⟨S4194304, .f32⟩
  | .hbm, ⟨19, _⟩ => ⟨S4194304x1, .f32⟩
  | .hbm, ⟨20, _⟩ => ⟨S4194304x1, .f32⟩
  | .hbm, ⟨21, _⟩ => ⟨S4194304x1, .f32⟩
  | .hbm, ⟨22, _⟩ => ⟨S4194304x1, .f32⟩
  | .hbm, ⟨23, _⟩ => ⟨S4194304x1, .f32⟩
  | .hbm, ⟨24, _⟩ => ⟨S4194304x1, .f32⟩
  | .hbm, ⟨25, _⟩ => ⟨S4194304x1, .f32⟩
  | .hbm, ⟨26, _⟩ => ⟨S4194304x1, .f32⟩
  | .hbm, ⟨27, _⟩ => ⟨S4194304x1, .f32⟩
  | .hbm, ⟨28, _⟩ => ⟨S4194304x9, .f32⟩
  | .hbm, ⟨29, _⟩ => ⟨S4194304x3x3, .f32⟩
  | .hbm, ⟨30, _⟩ => ⟨S4194304, .f32⟩
  | .hbm, ⟨31, _⟩ => ⟨S4194304x1, .f32⟩
  | .hbm, ⟨32, _⟩ => ⟨S4194304x1, .f32⟩
  | .hbm, ⟨33, _⟩ => ⟨S4194304x1, .f32⟩
  | .hbm, ⟨34, _⟩ => ⟨S4194304x1, .f32⟩
  | .hbm, ⟨35, _⟩ => ⟨S4194304x1, .f32⟩
  | .hbm, ⟨36, _⟩ => ⟨S4194304x1, .f32⟩
  | .hbm, ⟨37, _⟩ => ⟨S4194304x1, .f32⟩
  | .hbm, ⟨38, _⟩ => ⟨S4194304x1, .f32⟩
  | .hbm, ⟨39, _⟩ => ⟨S4194304x1, .f32⟩
  | .hbm, ⟨40, _⟩ => ⟨S4194304x9, .f32⟩
  | .hbm, ⟨41, _⟩ => ⟨S4194304x3x3, .f32⟩
  | .hbm, ⟨42, _⟩ => ⟨S4194304, .f32⟩
  | .hbm, ⟨43, _⟩ => ⟨S4194304x1, .f32⟩
  | .hbm, ⟨44, _⟩ => ⟨S4194304x1, .f32⟩
  | .hbm, ⟨45, _⟩ => ⟨S4194304x1, .f32⟩
  | .hbm, ⟨46, _⟩ => ⟨S4194304x1, .f32⟩
  | .hbm, ⟨47, _⟩ => ⟨S4194304x1, .f32⟩
  | .hbm, ⟨48, _⟩ => ⟨S4194304x1, .f32⟩
  | .hbm, ⟨49, _⟩ => ⟨S4194304x1, .f32⟩
  | .hbm, ⟨50, _⟩ => ⟨S4194304x1, .f32⟩
  | .hbm, ⟨51, _⟩ => ⟨S4194304x1, .f32⟩
  | .hbm, ⟨52, _⟩ => ⟨S4194304x9, .f32⟩
  | .hbm, ⟨53, _⟩ => ⟨S4194304x3x3, .f32⟩
  | .hbm, ⟨54, _⟩ => ⟨S4194304x3x3, .f32⟩
  | .hbm, ⟨55, _⟩ => ⟨S4194304x3x3, .f32⟩
  | .hbm, ⟨56, _⟩ => ⟨S4194304x3x1, .f32⟩
  | .hbm, ⟨57, _⟩ => ⟨S4194304x3x4, .f32⟩
  | .hbm, ⟨58, _⟩ => ⟨S4194304x12, .f32⟩
  | _, _ => ⟨S4194304x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩

abbrev nD : Nat := 1
abbrev τ : Topo := Topo.v7x

variable {F : FTy → Type} [FloatOps F]

class Facts₀ : Prop where
  slices_S4194304x6_S4194304x1_0_0 : S4194304x6.Slices ![0, 0] S4194304x1
  shapeCasts_S4194304x1_S4194304 : S4194304x1.ShapeCasts S4194304
  slices_S4194304x6_S4194304x1_0_1 : S4194304x6.Slices ![0, 1] S4194304x1
  slices_S4194304x6_S4194304x1_0_2 : S4194304x6.Slices ![0, 2] S4194304x1
  slices_S4194304x6_S4194304x3_0_3 : S4194304x6.Slices ![0, 3] S4194304x3
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x1_S4194304x1_S4194304x1_S4194304x1_S4194304x1_S4194304x1_S4194304x1_S4194304x9_d1 : Shape.Concatenates [S4194304x1, S4194304x1, S4194304x1, S4194304x1, S4194304x1, S4194304x1, S4194304x1, S4194304x1, S4194304x1] S4194304x9 1
  shapeCasts_S4194304x9_S4194304x3x3 : S4194304x9.ShapeCasts S4194304x3x3
  bcast_S4194304x3_S4194304x3x1_0_1 : S4194304x3.BroadcastsInDim S4194304x3x1 (![0, 1] : Fin 2 → Fin S4194304x3x1.rank)
  concatenates_S4194304x3x3_S4194304x3x1_S4194304x3x4_d2 : Shape.Concatenates [S4194304x3x3, S4194304x3x1] S4194304x3x4 2
  shapeCasts_S4194304x3x4_S4194304x12 : S4194304x3x4.ShapeCasts S4194304x12
  dot_S4194304x3x3_S4194304x3x3_S4194304x3x3_1_2_2_1_0_0_wf : DotDims.WF S4194304x3x3 S4194304x3x3 S4194304x3x3 [1] [2] [2] [1] [0] [0]
  dot_S4194304x3x3_S4194304x3x3_S4194304x3x3_1_1_2_2_0_0_wf : DotDims.WF S4194304x3x3 S4194304x3x3 S4194304x3x3 [1] [1] [2] [2] [0] [0]

variable [Facts₀]

def dot_S4194304x3x3_S4194304x3x3_S4194304x3x3_1_2_2_1_0_0 : DotDims S4194304x3x3 S4194304x3x3 S4194304x3x3 where
  lhsContracting := [1]
  rhsContracting := [2]
  lhsNonContracting := [2]
  rhsNonContracting := [1]
  lhsBatch := [0]
  rhsBatch := [0]
  wf := dot_S4194304x3x3_S4194304x3x3_S4194304x3x3_1_2_2_1_0_0_wf
def dot_S4194304x3x3_S4194304x3x3_S4194304x3x3_1_1_2_2_0_0 : DotDims S4194304x3x3 S4194304x3x3 S4194304x3x3 where
  lhsContracting := [1]
  rhsContracting := [1]
  lhsNonContracting := [2]
  rhsNonContracting := [2]
  lhsBatch := [0]
  rhsBatch := [0]
  wf := dot_S4194304x3x3_S4194304x3x3_S4194304x3x3_1_1_2_2_0_0_wf

class Facts : Prop extends Facts₀ where

variable [Facts]
-- ==== Proof.Rotation.lean ====
/-
  One row of the result as a function of one row of the input. An input row is
  (ax, ay, az, tx, ty, tz): three Euler angles and a translation. The result row is the 3 x 4 affine
  matrix [R | t] laid out row by row, where R = Rx(ax) * Ry(ay) * Rz(az) is the product of the three
  elementary rotations. `row` is that matrix with the product multiplied out entry by entry;
  `prod` is the same product computed as two successive 3 x 3 matrix products over the matrices'
  nine entries, zeros and ones included. `prod_eq` says they agree on every extended real: each entry
  of Rx * Ry is a single monomial, so no sum is ever distributed over, and what is used of the
  extended reals is only that zero annihilates, one is neutral, signs move through products, and
  sums and products commute.
-/
import Idealize.ShloMosaic.PureOps.Ideal
import Idealize.ShloMosaic.Lib.ValueIdx
import Mathlib.Data.Fin.VecNotation
import Mathlib.Algebra.BigOperators.Fin

noncomputable section

open scoped BigOperators

namespace Cert.EulerAffine

open Idealize.ShloMosaic

/-- The twelve entries of [R | t], the rotation multiplied out: with c. = cos, s. = sin of the angles,
    R = [[cy cz, -cy sz, sy], [cx sz + sx sy cz, cx cz - sx sy sz, -sx cy], [sx sz - cx sy cz, sx cz + cx sy sz, cx cy]],
    a negation written as a difference from zero. -/
def row (a : Fin 6 → EReal) (q : Fin 12) : EReal :=
  match q with
  | ⟨0, _⟩ => Ideal.cos (a 1) * Ideal.cos (a 2)
  | ⟨1, _⟩ => (0 - Ideal.cos (a 1)) * Ideal.sin (a 2)
  | ⟨2, _⟩ => Ideal.sin (a 1)
  | ⟨3, _⟩ => a 3
  | ⟨4, _⟩ => Ideal.cos (a 0) * Ideal.sin (a 2) + Ideal.sin (a 0) * Ideal.sin (a 1) * Ideal.cos (a 2)
  | ⟨5, _⟩ => Ideal.cos (a 0) * Ideal.cos (a 2) - Ideal.sin (a 0) * Ideal.sin (a 1) * Ideal.sin (a 2)
  | ⟨6, _⟩ => (0 - Ideal.sin (a 0)) * Ideal.cos (a 1)
  | ⟨7, _⟩ => a 4
  | ⟨8, _⟩ => Ideal.sin (a 0) * Ideal.sin (a 2) - Ideal.cos (a 0) * Ideal.sin (a 1) * Ideal.cos (a 2)
  | ⟨9, _⟩ => Ideal.sin (a 0) * Ideal.cos (a 2) + Ideal.cos (a 0) * Ideal.sin (a 1) * Ideal.sin (a 2)
  | ⟨10, _⟩ => Ideal.cos (a 0) * Ideal.cos (a 1)
  | ⟨11, _⟩ => a 5
  | ⟨n + 12, h⟩ => absurd h (by omega)

/-- The whole result array: its row b is `row` of the input's row b. -/
def affine (v : (⟨2, ![4194304, 6]⟩ : Shape).Idx → EReal) : (⟨2, ![4194304, 12]⟩ : Shape).Idx → EReal :=
  fun i => row (fun k => v (ValueIdx.ix2 (i 0) k)) (i 1)

/-- Rotation about the first axis by the first angle. -/
def rotX (a : Fin 6 → EReal) : Fin 3 → Fin 3 → EReal :=
  ![![1, 0, 0], ![0, Ideal.cos (a 0), -Ideal.sin (a 0)], ![0, Ideal.sin (a 0), Ideal.cos (a 0)]]
/-- Rotation about the second axis by the second angle. -/
def rotY (a : Fin 6 → EReal) : Fin 3 → Fin 3 → EReal :=
  ![![Ideal.cos (a 1), 0, Ideal.sin (a 1)], ![0, 1, 0], ![-Ideal.sin (a 1), 0, Ideal.cos (a 1)]]
/-- Rotation about the third axis by the third angle. -/
def rotZ (a : Fin 6 → EReal) : Fin 3 → Fin 3 → EReal :=
  ![![Ideal.cos (a 2), -Ideal.sin (a 2), 0], ![Ideal.sin (a 2), Ideal.cos (a 2), 0], ![0, 0, 1]]

/-- Entry (i, l) of Rx * Ry * Rz as two successive products: first M = Rx * Ry, summed over j with the factor of Ry
    written first, then M * Rz summed over k. -/
def prod (a : Fin 6 → EReal) (i l : Fin 3) : EReal :=
  ∑ k : Fin 3, (∑ j : Fin 3, rotY a j k * rotX a i j) * rotZ a k l

/-- The two-step product is the multiplied-out rotation, entry by entry, at every extended real: row 0 of Rx is a unit
    vector, so row 0 of the product is row 0 of Ry * Rz outright; in rows 1 and 2 each entry of Rx * Ry keeps one
    monomial after the zeros are dropped, and the sum over k then has the closed form's two monomials (or one) in
    another order. -/
theorem prod_eq (a : Fin 6 → EReal) (i l : Fin 3) :
    prod a i l = row a ⟨4 * i.val + l.val, by omega⟩ := by
  fin_cases i <;> fin_cases l <;>
    simp [prod, row, rotX, rotY, rotZ, Fin.sum_univ_three] <;>
    (try simp only [sub_eq_add_neg]) <;> ac_rfl

end Cert.EulerAffine

end
-- ==== Proof.KernelValue.lean ====
/-
  What the kernel leaves in its result array, read as one function of the argument array.
  The grid has 512 points; point t works on rows 8192 t to 8192 t + 8191: it loads those rows of the
  6-column input as one block, and stores one 8192 x 12 block whose twelve columns are computed from
  the block's six columns row by row. Column q of the stored block at row r is entry q of `row` of
  the loaded block's row r (`block_row`); the input block's row r is the array's row 8192 t + r and the
  output block lands on the same rows, all twelve columns, so what point t writes back is block t of
  `affine` of the argument (`flushed_eq`); the 512 blocks tile the result (row i lies in block i / 8192),
  so the result array after the run is `affine` of the argument (`final`, `run`).
-/
import proofs.«150475_j74208444940704_1_alg».proof.Proof.Gen.KernelIdeal.Value
import proofs.«150475_j74208444940704_1_alg».proof.Proof.Rotation
import Idealize.ShloMosaic.Lib.ValueIdx
import Idealize.ShloMosaic.Lib.Pipeline.Value
import Idealize.ShloMosaic.PureOps.Ideal.Laws

noncomputable section

namespace Cert.EulerAffine.KernelSide

open Idealize.ShloMosaic Idealize.ShloMosaic.ValueIdx Idealize.ShloMosaic.TcCoe Idealize.SL.Sem
open Cert.KernelIdeal Cert.KernelIdeal.Gen Cert.KernelIdeal.Value Cert.EulerAffine
open Idealize.ShloMosaic.Pipeline (Dat)

/-! ## One block: the body's twelve columns at a row -/

/-- Column `o` of a 6-column block, sliced out and flattened to a vector, read at row `r`: the block at (r, o). -/
theorem flat_col (P0 : Vec Ideal S8192x6 .f32) (o : Nat) (ho : o < 6)
    (hs : S8192x6.Slices ![0, o] S8192x1) (hc : S8192x1.ShapeCasts S8192) (r : Fin 8192) :
    shapeCast S8192 (extractStridedSlice S8192x1 ![0, o] P0 hs) hc (ix1 r) = P0 (ix2 r ⟨o, ho⟩) := by
  refine (shapeCast_apply _ hc (ix1 r) (ix2 r (0 : Fin 1)) ?_).trans ?_
  · rw [Shape.rowMajor_val_two, Shape.rowMajor_val_one]; show r.val * 1 + 0 = r.val; omega
  · exact extractStridedSlice_apply _ P0 hs (ix2 r (0 : Fin 1)) (ix2 r ⟨o, ho⟩) (fun a => match a with
      | ⟨0, _⟩ => by show r.val = 0 + r.val; omega
      | ⟨1, _⟩ => by show o = o + 0; omega)

/-- A vector given a trailing axis of extent one, read at (r, 0): the vector at r. -/
theorem unit_col (u : FVec Ideal S8192 .f32) (h : S8192.ShapeCasts S8192x1) (r : Fin 8192) :
    shapeCast S8192x1 u h (ix2 r (0 : Fin 1)) = u (ix1 r) := by
  refine shapeCast_apply u h (ix2 r (0 : Fin 1)) (ix1 r) ?_
  rw [Shape.rowMajor_val_two, Shape.rowMajor_val_one]; show r.val = r.val * 1 + 0; omega

/-- The cosine of a vector at an index is the cosine of the element, -/
theorem cos_at {s : Shape} (u : FVec Ideal s .f32) (i : s.Idx) : cos u i = Ideal.cos (u i) := rfl
/-- and likewise the sine. -/
theorem sin_at {s : Shape} (u : FVec Ideal s .f32) (i : s.Idx) : sin u i = Ideal.sin (u i) := rfl
/-- The all-zero word is the number zero. -/
theorem zero_word : (Scalar.ofBits .f32 0x00000000#32 : Ideal .f32) = 0 := Ideal.ofBits_zero_f32

/-- The stored block at (r, q), as a function of the loaded block: entry q of `row` of the loaded block's row r.
    Column q of the concatenation is its operand q at (r, 0); each operand is a vector with a unit axis added; the
    vector is sines, cosines, products, sums and differences, element by element, of flattened columns of the load. -/
theorem block_row (P0 : Vec Ideal S8192x6 .f32) (r : Fin 8192) (q : Fin 12) :
    E1 P0 (ix2 r q) = row (fun k => P0 (ix2 r k)) q := by
  show Cat1_0 P0 (csel1_0 (ix2 r q)) (ix1_0 (ix2 r q)) = _
  have hi : ix1_0 (ix2 r q) = ix2 r (0 : Fin 1) := funext fun a => match a with | ⟨0, _⟩ => rfl | ⟨1, _⟩ => rfl
  have hq : csel1_0 (ix2 r q) = q := Fin.ext rfl
  rw [hi, hq]
  fin_cases q <;> dsimp only [Cat1_0] <;>
    simp only [unit_col, mulf_apply, addf_apply, subf_apply, cos_at, sin_at, broadcast_apply, zero_word,
      flat_col _ 0 (by decide), flat_col _ 1 (by decide), flat_col _ 2 (by decide), flat_col _ 3 (by decide),
      flat_col _ 4 (by decide), flat_col _ 5 (by decide)] <;>
    rfl

theorem hz : (![0, 0] : Fin 2 → Nat) = fun _ => 0 := funext fun a => by fin_cases a <;> rfl

/-- What the body leaves in the output buffer, from the loaded block `x0`: at (y 0, y 1), entry (y 1) of `row` of
    row (y 0) of `x0`. The body's one store covers the whole buffer and its load reads the whole input block. -/
theorem out_eq (x0 : Vec Ideal S8192x6 .f32) (y : S8192x12.Idx) :
    out0_1 x0 y = row (fun k => x0 (ix2 (y 0) k)) (y 1) := by
  unfold out0_1
  rw [canon1_eq (View.ld x0 r0_0) y, View.ld_unit_zero (S := S8192x6) hz]
  obtain ⟨r, q, rfl⟩ : ∃ (r : Fin 8192) (q : Fin 12), y = ix2 r q := ⟨y 0, y 1, eq_ix2 y⟩
  exact block_row x0 r q

/-! ## From blocks to the array -/

variable (m : (ℓ : Loc nD τ sig) → Buf (Elt Ideal) ℓ) (ρ : Dev nD → PrngReg)

/-- Both windows' block index at point t is (t, 0): decided over the 512 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT t WRITES BACK is block t of `affine` of the argument array. At block index j the output element sits at
    array row 8192 t + j 0 and column j 1; the input block's row j 0 is the argument's row 8192 t + j 0, all six
    columns. -/
theorem flushed_eq (c : Dev nD) (t : Fin cfg0.N) :
    (dats m 0 c).flushed 1 t = ((cfg0.win 1).blk t).view.read (Elt Ideal) (affine (V m c main_arg0)) := by
  rw [Value.flushed1]
  obtain ⟨e0, e1, e2, e3⟩ := idx_facts t
  funext j
  show out0_1 (iblk m c 0 t) j = affine (V m c main_arg0) (((cfg0.win 1).blk t).view.emb j)
  refine (out_eq _ _).trans ?_
  have hq : (j 1 : Fin 12) = (((cfg0.win 1).blk t).view.emb j) 1 := Fin.ext (by
    show (j 1).val = win0_1.index t (1 : Fin 2) * 12 + 1 * (j 1).val; omega)
  have hk : ∀ k : Fin 6, ((cfg0.win 0).blk t).view.emb (ix2 (j 0 : Fin 8192) k)
      = ix2 ((((cfg0.win 1).blk t).view.emb j) 0) k := fun k => by
    funext a; apply Fin.ext
    match a with
    | ⟨0, _⟩ => show win0_0.index t (0 : Fin 2) * 8192 + 1 * (j 0).val = win0_1.index t (0 : Fin 2) * 8192 + 1 * (j 0).val; omega
    | ⟨1, _⟩ => show win0_0.index t (1 : Fin 2) * 6 + 1 * k.val = k.val; omega
  show row (fun k => V m c main_arg0 (((cfg0.win 0).blk t).view.emb (ix2 (j 0 : Fin 8192) k))) (j 1 : Fin 12)
     = row (fun k => V m c main_arg0 (ix2 ((((cfg0.win 1).blk t).view.emb j) 0) k)) ((((cfg0.win 1).blk t).view.emb j) 1)
  rw [← hq]
  exact congrArg (fun f : Fin 6 → EReal => row f (j 1 : Fin 12)) (funext fun k => congrArg (V m c main_arg0) (hk k))

/-- An index of the result array is in point t's block iff each coordinate is in the block's range on its axis. -/
theorem mem_blk (t : Fin cfg0.N) (i : S4194304x12.Idx) :
    i ∈ ((cfg0.win 1).blk t).view.set ↔ ∀ a : Fin 2, win0_1.index t a * S8192x12.size a ≤ (i a).val ∧ (i a).val < win0_1.index t a * S8192x12.size a + S8192x12.size a := by
  show i ∈ ((View.whole main_v0).slice (win0_1.rect t)).set ↔ _
  rw [View.set_slice_whole, Rect.mem_set_unit]
  exact Iff.rfl

/-- The blocks tile the result: row i 0 lies in the block of point (i 0) / 8192, whose twelve columns are all of them. -/
theorem cover (i : S4194304x12.Idx) : ∃ t : Fin cfg0.N, (cfg0.win 1).flush t = true ∧ i ∈ ((cfg0.win 1).blk t).view.set := by
  have hi0 : (i 0).val < 4194304 := (i 0).isLt
  have hi1 : (i 1).val < 12 := (i 1).isLt
  let t : Fin cfg0.N := ⟨(i 0).val / 8192, by show (i 0).val / 8192 < 512; omega⟩
  obtain ⟨-, -, e2, e3⟩ := idx_facts t
  have ht : t.val = (i 0).val / 8192 := rfl
  refine ⟨t, flush0_1 t, ?_⟩
  rw [mem_blk]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 12 ≤ (i 1).val ∧ (i 1).val < win0_1.index t (1 : Fin 2) * 12 + 12; omega

/-- THE RESULT ARRAY after the run is `affine` of the argument array. -/
theorem final (c : Dev nD) : (dats m 0 c).arrAt 1 cfg0.N = affine (m ((c : Thread nD τ).loc main_arg0)) :=
  (dats m 0 c).arrAt_eq_of_cover 1 (affine (V m c main_arg0)) (fun t _ => flushed_eq m c t) cover

/-- Every weakly fair execution of the kernel program terminates with the result at `affine` of the argument and the
    argument unchanged. -/
theorem run : θ_run defs (onTc (τ := τ) (main (F := Ideal))) ⟨m, fun _ => 0, ρ⟩ fun r => ∀ c : Dev nD,
      r.2.mem ((c : Thread nD τ).loc main_v0) = affine (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.EulerAffine.KernelSide

end
-- ==== Proof.ReferenceValue.lean ====
/-
  What the reference computes, read as one function of the argument array.
  The reference takes the three angle columns of the argument, forms their sines and cosines, stacks each elementary
  rotation's nine entries (zeros and ones among them) as a 3 x 3 matrix per batch row, multiplies the three matrices by
  two batched contractions, joins the translation on as a fourth column, and reshapes each 3 x 4 matrix to a row of
  twelve. Read stage by stage at an index, row b of the result is the two-step product `prod` of the argument's row b
  in columns 4 i + l (l < 3) and the argument's entry 3 + i in column 4 i + 3; `prod` is the multiplied-out `row`
  (`prod_eq`), so the result is `affine` of the argument (`result_eq`).
-/
import proofs.«150475_j74208444940704_1_alg».proof.Proof.Gen.ReferenceIdeal.Read
import proofs.«150475_j74208444940704_1_alg».proof.Proof.Rotation
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.EulerAffine.ReferenceSide

open Idealize.ShloMosaic Idealize.ShloMosaic.ValueIdx Idealize.ShloMosaic.TcCoe Idealize.SL.Sem
open Cert.ReferenceIdeal Cert.ReferenceIdeal.Gen Cert.ReferenceIdeal.Read Cert.EulerAffine

variable (x0 : (⟨S4194304x6, .f32⟩ : BufTy).Contents (Elt Ideal))

/-! ## The three angle vectors and the constant vectors

Column 0, 1 or 2 of the argument, sliced out as a one-column array and reshaped to a vector, read at row i: the argument at
(i, column). -/

/-- The first angle's vector at row i is the argument at (i, 0), -/
theorem ang0 (i : S4194304.Idx) : val_main_v1 (F := Ideal) x0 i = x0 (ix2 (i 0) (0 : Fin 6)) := by
  rw [val_main_v1_apply, val_main_v0_apply]
  exact congrArg x0 (funext fun a => Fin.ext (match a with | ⟨0, _⟩ => Nat.div_one _ | ⟨1, _⟩ => rfl))
/-- the second angle's the argument at (i, 1), -/
theorem ang1 (i : S4194304.Idx) : val_main_v3 (F := Ideal) x0 i = x0 (ix2 (i 0) (1 : Fin 6)) := by
  rw [val_main_v3_apply, val_main_v2_apply]
  exact congrArg x0 (funext fun a => Fin.ext (match a with | ⟨0, _⟩ => Nat.div_one _ | ⟨1, _⟩ => rfl))
/-- and the third's the argument at (i, 2). -/
theorem ang2 (i : S4194304.Idx) : val_main_v5 (F := Ideal) x0 i = x0 (ix2 (i 0) (2 : Fin 6)) := by
  rw [val_main_v5_apply, val_main_v4_apply]
  exact congrArg x0 (funext fun a => Fin.ext (match a with | ⟨0, _⟩ => Nat.div_one _ | ⟨1, _⟩ => rfl))

/-- The broadcast zero constant is the number zero at every row, -/
theorem zeros (i : S4194304.Idx) : val_main_v13 (F := Ideal) i = 0 := by
  rw [val_main_v13_apply, val_main_cst_apply]; exact Ideal.ofBits_zero_f32
/-- and the broadcast one constant the number one. -/
theorem ones (i : S4194304.Idx) : val_main_v14 (F := Ideal) i = 1 := by
  rw [val_main_v14_apply, val_main_cst_0_apply]; exact Ideal.ofBits_one_f32

/-! ## The three rotation matrices

Each matrix is nine one-column arrays joined along the column axis into a 9-column array, then reshaped to 3 x 3 per
row of the batch: entry (i, j) of the matrix of batch row b is column 3 i + j at row b, and column n of the join is
the n-th one-column array at (b, 0). Those arrays are a broadcast of zero, of one, or of a sine, a cosine or a negated
sine of one of the three angle vectors. -/

/-- The nine columns the first matrix (rotation about the first axis) is stacked from. -/
abbrev colsX : Fin 9 → (S4194304x1.Idx → EReal) := fun n => match n with
  | ⟨0, _⟩ => val_main_v16 (F := Ideal) | ⟨1, _⟩ => val_main_v17 (F := Ideal) | ⟨2, _⟩ => val_main_v18 (F := Ideal)
  | ⟨3, _⟩ => val_main_v19 (F := Ideal) | ⟨4, _⟩ => val_main_v20 (F := Ideal) x0 | ⟨5, _⟩ => val_main_v21 (F := Ideal) x0
  | ⟨6, _⟩ => val_main_v22 (F := Ideal) | ⟨7, _⟩ => val_main_v23 (F := Ideal) x0 | ⟨8, _⟩ => val_main_v24 (F := Ideal) x0

/-- Column n of the first 9-column join at batch row b is the n-th stacked column at (b, 0). -/
theorem v25_piece (b : Fin 4194304) (n : Fin 9) :
    val_main_v25 (F := Ideal) x0 (ix2 b n) = colsX x0 n (ix2 b (0 : Fin 1)) := by
  unfold val_main_v25
  show concatenate S4194304x9 1 (List.ofFn fun n : Fin 9 => (⟨S4194304x1, colsX x0 n⟩ : (s : Shape) × (s.Idx → EReal))) _ (ix2 b n) = _
  exact concatenate_ofFn_unit_apply (t := S4194304x9) (s₁ := S4194304x1) (1 : Fin 2) (colsX x0) _ rfl rfl (ix2 b n) n rfl
    (ix2 b (0 : Fin 1)) (fun a ha => by match a with | ⟨0, _⟩ => rfl | ⟨1, _⟩ => exact absurd rfl ha)

/-- The first matrix at (b, i, j) is the rotation about the first axis by row b's first angle, entry (i, j). -/
theorem v26_at (b : Fin 4194304) (i j : Fin 3) :
    val_main_v26 (F := Ideal) x0 (ix3 b i j) = rotX (fun k => x0 (ix2 b k)) i j := by
  rw [val_main_v26_apply]
  have hidx : idx_main_v26 (ix3 b i j) = ix2 b (⟨3 * i.val + j.val, by omega⟩ : Fin 9) := by
    funext a; apply Fin.ext
    have hb := b.isLt; have hi := i.isLt; have hj := j.isLt
    match a with
    | ⟨0, _⟩ => show ((b.val * 3 + i.val) * 3 + j.val) / 9 = b.val; omega
    | ⟨1, _⟩ => show ((b.val * 3 + i.val) * 3 + j.val) % 9 = 3 * i.val + j.val; omega
  rw [hidx, v25_piece]
  fin_cases i <;> fin_cases j <;> dsimp only [colsX] <;>
    simp only [val_main_v16_apply, val_main_v17_apply, val_main_v18_apply, val_main_v19_apply, val_main_v20_apply,
      val_main_v21_apply, val_main_v22_apply, val_main_v23_apply, val_main_v24_apply, val_main_v15_apply,
      val_main_v7_apply, val_main_v8_apply, ang0, zeros, ones] <;>
    rfl

/-- The nine columns the second matrix (rotation about the second axis) is stacked from. -/
abbrev colsY : Fin 9 → (S4194304x1.Idx → EReal) := fun n => match n with
  | ⟨0, _⟩ => val_main_v28 (F := Ideal) x0 | ⟨1, _⟩ => val_main_v29 (F := Ideal) | ⟨2, _⟩ => val_main_v30 (F := Ideal) x0
  | ⟨3, _⟩ => val_main_v31 (F := Ideal) | ⟨4, _⟩ => val_main_v32 (F := Ideal) | ⟨5, _⟩ => val_main_v33 (F := Ideal)
  | ⟨6, _⟩ => val_main_v34 (F := Ideal) x0 | ⟨7, _⟩ => val_main_v35 (F := Ideal) | ⟨8, _⟩ => val_main_v36 (F := Ideal) x0

/-- Column n of the second join at batch row b is the n-th stacked column at (b, 0). -/
theorem v37_piece (b : Fin 4194304) (n : Fin 9) :
    val_main_v37 (F := Ideal) x0 (ix2 b n) = colsY x0 n (ix2 b (0 : Fin 1)) := by
  unfold val_main_v37
  show concatenate S4194304x9 1 (List.ofFn fun n : Fin 9 => (⟨S4194304x1, colsY x0 n⟩ : (s : Shape) × (s.Idx → EReal))) _ (ix2 b n) = _
  exact concatenate_ofFn_unit_apply (t := S4194304x9) (s₁ := S4194304x1) (1 : Fin 2) (colsY x0) _ rfl rfl (ix2 b n) n rfl
    (ix2 b (0 : Fin 1)) (fun a ha => by match a with | ⟨0, _⟩ => rfl | ⟨1, _⟩ => exact absurd rfl ha)

/-- The second matrix at (b, i, j) is the rotation about the second axis by row b's second angle, entry (i, j). -/
theorem v38_at (b : Fin 4194304) (i j : Fin 3) :
    val_main_v38 (F := Ideal) x0 (ix3 b i j) = rotY (fun k => x0 (ix2 b k)) i j := by
  rw [val_main_v38_apply]
  have hidx : idx_main_v38 (ix3 b i j) = ix2 b (⟨3 * i.val + j.val, by omega⟩ : Fin 9) := by
    funext a; apply Fin.ext
    have hb := b.isLt; have hi := i.isLt; have hj := j.isLt
    match a with
    | ⟨0, _⟩ => show ((b.val * 3 + i.val) * 3 + j.val) / 9 = b.val; omega
    | ⟨1, _⟩ => show ((b.val * 3 + i.val) * 3 + j.val) % 9 = 3 * i.val + j.val; omega
  rw [hidx, v37_piece]
  fin_cases i <;> fin_cases j <;> dsimp only [colsY] <;>
    simp only [val_main_v28_apply, val_main_v29_apply, val_main_v30_apply, val_main_v31_apply, val_main_v32_apply,
      val_main_v33_apply, val_main_v34_apply, val_main_v35_apply, val_main_v36_apply, val_main_v27_apply,
      val_main_v9_apply, val_main_v10_apply, ang1, zeros, ones] <;>
    rfl

/-- The nine columns the third matrix (rotation about the third axis) is stacked from. -/
abbrev colsZ : Fin 9 → (S4194304x1.Idx → EReal) := fun n => match n with
  | ⟨0, _⟩ => val_main_v40 (F := Ideal) x0 | ⟨1, _⟩ => val_main_v41 (F := Ideal) x0 | ⟨2, _⟩ => val_main_v42 (F := Ideal)
  | ⟨3, _⟩ => val_main_v43 (F := Ideal) x0 | ⟨4, _⟩ => val_main_v44 (F := Ideal) x0 | ⟨5, _⟩ => val_main_v45 (F := Ideal)
  | ⟨6, _⟩ => val_main_v46 (F := Ideal) | ⟨7, _⟩ => val_main_v47 (F := Ideal) | ⟨8, _⟩ => val_main_v48 (F := Ideal)

/-- Column n of the third join at batch row b is the n-th stacked column at (b, 0). -/
theorem v49_piece (b : Fin 4194304) (n : Fin 9) :
    val_main_v49 (F := Ideal) x0 (ix2 b n) = colsZ x0 n (ix2 b (0 : Fin 1)) := by
  unfold val_main_v49
  show concatenate S4194304x9 1 (List.ofFn fun n : Fin 9 => (⟨S4194304x1, colsZ x0 n⟩ : (s : Shape) × (s.Idx → EReal))) _ (ix2 b n) = _
  exact concatenate_ofFn_unit_apply (t := S4194304x9) (s₁ := S4194304x1) (1 : Fin 2) (colsZ x0) _ rfl rfl (ix2 b n) n rfl
    (ix2 b (0 : Fin 1)) (fun a ha => by match a with | ⟨0, _⟩ => rfl | ⟨1, _⟩ => exact absurd rfl ha)

/-- The third matrix at (b, i, j) is the rotation about the third axis by row b's third angle, entry (i, j). -/
theorem v50_at (b : Fin 4194304) (i j : Fin 3) :
    val_main_v50 (F := Ideal) x0 (ix3 b i j) = rotZ (fun k => x0 (ix2 b k)) i j := by
  rw [val_main_v50_apply]
  have hidx : idx_main_v50 (ix3 b i j) = ix2 b (⟨3 * i.val + j.val, by omega⟩ : Fin 9) := by
    funext a; apply Fin.ext
    have hb := b.isLt; have hi := i.isLt; have hj := j.isLt
    match a with
    | ⟨0, _⟩ => show ((b.val * 3 + i.val) * 3 + j.val) / 9 = b.val; omega
    | ⟨1, _⟩ => show ((b.val * 3 + i.val) * 3 + j.val) % 9 = 3 * i.val + j.val; omega
  rw [hidx, v49_piece]
  fin_cases i <;> fin_cases j <;> dsimp only [colsZ] <;>
    simp only [val_main_v40_apply, val_main_v41_apply, val_main_v42_apply, val_main_v43_apply, val_main_v44_apply,
      val_main_v45_apply, val_main_v46_apply, val_main_v47_apply, val_main_v48_apply, val_main_v39_apply,
      val_main_v11_apply, val_main_v12_apply, ang2, zeros, ones] <;>
    rfl

/-! ## The two batched products

The first contracts the second matrix's row axis with the first matrix's column axis and leaves the result's axes in
the order (batch, column of the second, row of the first): at (b, k, i) it is the sum over j of Ry[j, k] * Rx[i, j],
which is (Rx * Ry)[i, k]. The second contracts that result's middle axis with the third matrix's row axis: at
(b, i, l) it is the sum over k of the first product at (b, k, i) times Rz[k, l]. -/

/-- The first product at (b, k, i): the sum over j of Ry[j, k] * Rx[i, j] of row b's rotations. -/
theorem v51_at (b : Fin 4194304) (k i : Fin 3) :
    val_main_v51 (F := Ideal) x0 (ix3 b k i)
      = ∑ j : Fin 3, rotY (fun k => x0 (ix2 b k)) j k * rotX (fun k => x0 (ix2 b k)) i j := by
  rw [val_main_v51_apply]
  refine Finset.sum_congr rfl fun j _ => ?_
  have hl : lidx_main_v51 (ix3 b k i) j = ix3 b j k := funext fun a => match a with | ⟨0, _⟩ => rfl | ⟨1, _⟩ => rfl | ⟨2, _⟩ => rfl
  have hr : ridx_main_v51 (ix3 b k i) j = ix3 b i j := funext fun a => match a with | ⟨0, _⟩ => rfl | ⟨1, _⟩ => rfl | ⟨2, _⟩ => rfl
  rw [hl, hr, v38_at, v26_at]

/-- The second product at (b, i, l) is `prod` of row b at (i, l). -/
theorem v52_at (b : Fin 4194304) (i l : Fin 3) :
    val_main_v52 (F := Ideal) x0 (ix3 b i l) = prod (fun k => x0 (ix2 b k)) i l := by
  rw [val_main_v52_apply]
  unfold prod
  refine Finset.sum_congr rfl fun k _ => ?_
  have hl : lidx_main_v52 (ix3 b i l) k = ix3 b k i := funext fun a => match a with | ⟨0, _⟩ => rfl | ⟨1, _⟩ => rfl | ⟨2, _⟩ => rfl
  have hr : ridx_main_v52 (ix3 b i l) k = ix3 b k l := funext fun a => match a with | ⟨0, _⟩ => rfl | ⟨1, _⟩ => rfl | ⟨2, _⟩ => rfl
  rw [hl, hr, v51_at, v50_at]

/-! ## The translation column, and the reshape to twelve columns

The 3 x 3 product and the translation, as a 3 x 1 array per batch row, are joined along the last axis into 3 x 4: last
coordinate l < 3 reads the product at (b, i, l), last coordinate 3 reads the translation's entry i, which is the
argument at (b, 3 + i). The reshape to twelve columns puts (b, i, l) at column 4 i + l. -/

/-- The joined array at (b, i, l) for l < 3 is the product's entry (i, l). -/
theorem v54_left (b : Fin 4194304) (i l : Fin 3) :
    val_main_v54 (F := Ideal) x0 (ix3 b i (⟨l.val, by omega⟩ : Fin 4)) = prod (fun k => x0 (ix2 b k)) i l := by
  unfold val_main_v54
  refine (concatenate_pair_apply_left (t := S4194304x3x4) (s₁ := S4194304x3x3) (s₂ := S4194304x3x1) (2 : Fin 3) _ _ _ _ rfl (ix3 b i l)
    (fun a => match a with | ⟨0, _⟩ => rfl | ⟨1, _⟩ => rfl | ⟨2, _⟩ => rfl)).trans ?_
  exact v52_at x0 b i l

/-- The joined array at (b, i, 3) is the argument at (b, 3 + i): the translation's entry i. -/
theorem v54_right (b : Fin 4194304) (i : Fin 3) :
    val_main_v54 (F := Ideal) x0 (ix3 b i (3 : Fin 4)) = x0 (ix2 b (⟨3 + i.val, by omega⟩ : Fin 6)) := by
  unfold val_main_v54
  refine (concatenate_pair_apply_right (t := S4194304x3x4) (s₁ := S4194304x3x3) (s₂ := S4194304x3x1) (2 : Fin 3) _ _ _ _ rfl rfl
    (ix3 b i (0 : Fin 1)) (fun a ha => match a with | ⟨0, _⟩ => rfl | ⟨1, _⟩ => rfl | ⟨2, _⟩ => absurd rfl ha) rfl).trans ?_
  rw [val_main_v53_apply, val_main_v6_apply]
  exact congrArg x0 (funext fun a => Fin.ext (match a with | ⟨0, _⟩ => rfl | ⟨1, _⟩ => rfl))

/-- The result at (b, 4 i + l) for l < 3 is entry 4 i + l of `row` of the argument's row b: the product there, by `prod_eq`. -/
theorem v55_left (b : Fin 4194304) (i l : Fin 3) :
    val_main_v55 (F := Ideal) x0 (ix2 b (⟨4 * i.val + l.val, by omega⟩ : Fin 12)) = row (fun k => x0 (ix2 b k)) ⟨4 * i.val + l.val, by omega⟩ := by
  rw [val_main_v55_apply]
  have hidx : idx_main_v55 (ix2 b (⟨4 * i.val + l.val, by omega⟩ : Fin 12)) = ix3 b i (⟨l.val, by omega⟩ : Fin 4) := by
    funext a; apply Fin.ext
    have hb := b.isLt; have hi := i.isLt; have hl := l.isLt
    match a with
    | ⟨0, _⟩ => show (b.val * 12 + (4 * i.val + l.val)) / 12 = b.val; omega
    | ⟨1, _⟩ => show (b.val * 12 + (4 * i.val + l.val)) / 4 % 3 = i.val; omega
    | ⟨2, _⟩ => show (b.val * 12 + (4 * i.val + l.val)) % 4 = l.val; omega
  rw [hidx, v54_left, prod_eq]

/-- The result at (b, 4 i + 3) is entry 4 i + 3 of `row` of the argument's row b: the translation's entry i. -/
theorem v55_right (b : Fin 4194304) (i : Fin 3) :
    val_main_v55 (F := Ideal) x0 (ix2 b (⟨4 * i.val + 3, by omega⟩ : Fin 12)) = row (fun k => x0 (ix2 b k)) ⟨4 * i.val + 3, by omega⟩ := by
  rw [val_main_v55_apply]
  have hidx : idx_main_v55 (ix2 b (⟨4 * i.val + 3, by omega⟩ : Fin 12)) = ix3 b i (3 : Fin 4) := by
    funext a; apply Fin.ext
    have hb := b.isLt; have hi := i.isLt
    match a with
    | ⟨0, _⟩ => show (b.val * 12 + (4 * i.val + 3)) / 12 = b.val; omega
    | ⟨1, _⟩ => show (b.val * 12 + (4 * i.val + 3)) / 4 % 3 = i.val; omega
    | ⟨2, _⟩ => show (b.val * 12 + (4 * i.val + 3)) % 4 = 3; omega
  rw [hidx, v54_right]
  fin_cases i <;> rfl

/-- THE REFERENCE'S RESULT is `affine` of the argument: column q = 4 i + l of row b, by the twelve values of q. -/
theorem result_eq : val_main_v55 (F := Ideal) x0 = affine x0 := by
  funext y
  obtain ⟨b, q, rfl⟩ : ∃ (b : Fin 4194304) (q : Fin 12), y = ix2 b q := ⟨y 0, y 1, eq_ix2 y⟩
  show _ = row (fun k => x0 (ix2 b k)) q
  fin_cases q
  · exact v55_left x0 b 0 0
  · exact v55_left x0 b 0 1
  · exact v55_left x0 b 0 2
  · exact v55_right x0 b 0
  · exact v55_left x0 b 1 0
  · exact v55_left x0 b 1 1
  · exact v55_left x0 b 1 2
  · exact v55_right x0 b 1
  · exact v55_left x0 b 2 0
  · exact v55_left x0 b 2 1
  · exact v55_left x0 b 2 2
  · exact v55_right x0 b 2

end Cert.EulerAffine.ReferenceSide

end
-- ==== Proof.lean ====
/-
  Euler angles to an affine matrix: each row (ax, ay, az, tx, ty, tz) of the argument goes to the row
  [R | t] of twelve numbers, R = Rx(ax) * Ry(ay) * Rz(az). The kernel writes R multiplied out entry by entry;
  the reference builds the three 3 x 3 matrices, zeros and ones included, and multiplies them. Both results are the
  one function `affine` of the argument (Proof/KernelValue.lean, Proof/ReferenceValue.lean), because the two-step
  matrix product is the multiplied-out form at every extended real (Proof/Rotation.lean `prod_eq`): every entry of
  Rx * Ry is a single monomial, so the equality needs no distributive law and holds at the infinities too, and the
  precondition is not used. The idealization rewrote nothing, so what it preserves is the empty conjunction.
-/
import proofs.«150475_j74208444940704_1_alg».proof.Defs
import proofs.«150475_j74208444940704_1_alg».proof.Proof.Gen.Kernel
import proofs.«150475_j74208444940704_1_alg».proof.Proof.Gen.Kernel.Skeleton
import proofs.«150475_j74208444940704_1_alg».proof.Proof.Gen.Kernel.Launch
import proofs.«150475_j74208444940704_1_alg».proof.Proof.Gen.Kernel.Points
import proofs.«150475_j74208444940704_1_alg».proof.Proof.Gen.Kernel.Frame
import proofs.«150475_j74208444940704_1_alg».proof.Proof.Gen.KernelIdeal
import proofs.«150475_j74208444940704_1_alg».proof.Proof.Gen.KernelIdeal.Skeleton
import proofs.«150475_j74208444940704_1_alg».proof.Proof.Gen.KernelIdeal.Launch
import proofs.«150475_j74208444940704_1_alg».proof.Proof.Gen.KernelIdeal.Points
import proofs.«150475_j74208444940704_1_alg».proof.Proof.Gen.KernelIdeal.Frame
import proofs.«150475_j74208444940704_1_alg».proof.Proof.Gen.ReferenceIdeal
import proofs.«150475_j74208444940704_1_alg».proof.Proof.Gen.Pre_finite_inputs
import proofs.«150475_j74208444940704_1_alg».proof.Proof.Gen.KernelIdeal.Value
import proofs.«150475_j74208444940704_1_alg».proof.Proof.Gen.ReferenceIdeal.Run
import proofs.«150475_j74208444940704_1_alg».proof.Proof.Gen.ReferenceIdeal.Read
import proofs.«150475_j74208444940704_1_alg».proof.Proof.KernelValue
import proofs.«150475_j74208444940704_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_k : Cert.frame_Kernel := fun m ρ _ => Cert.Kernel.Gen.frame m ρ
/-- So does the kernel read over the extended reals. -/
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the argument both programs end with the result at `affine` of that argument. -/
theorem algebraic : Cert.algebraic_KernelIdeal_ReferenceIdeal := by
  intro m ρ m' ρ' _ hagree
  refine ⟨fun c => Cert.EulerAffine.affine (m ((c.tc : Thread Cert.KernelIdeal.nD Cert.KernelIdeal.τ).loc Cert.KernelIdeal.main_arg0)),
    Cert.EulerAffine.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.EulerAffine.ReferenceSide.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
